-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x512 : Shape := ⟨3, ![1024, 128, 512]⟩
abbrev S1024x128 : Shape := ⟨2, ![1024, 128]⟩
abbrev S2048x512 : Shape := ⟨2, ![2048, 512]⟩
abbrev S_ : Shape := ⟨0, ![]⟩

class Facts : Prop where
  bcast_S_S1024x128x512 : S_.BroadcastsInDim S1024x128x512 (![] : Fin 0 → Fin S1024x128x512.rank)
  reducesTo_S1024x128x512_S_d0_1_2 : S1024x128x512.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x128x512 .f32) (main_arg1 : IVec S1024x128 32) (main_arg2 : FVec F S2048x512 .f32) : IVec S_ 1 :=
  let main_v0 : FVec F S1024x128x512 .f32 := Host.absf main_arg0
  let main_cst : FVec F S_ .f32 := constant S_ .f32 0x7F800000#32
  let main_v1 : FVec F S1024x128x512 .f32 := broadcastInDim S1024x128x512 ![] bcast_S_S1024x128x512 main_cst
  let main_v2 : IVec S1024x128x512 1 := cmpf .olt main_v0 main_v1
  let main_c : IVec S_ 1 := constantI S_ 1 1#1
  let main_v3 : IVec S_ 1 := (fun x v => Host.reduce IntOp.andi x v reducesTo_S1024x128x512_S_d0_1_2 h_S_) main_v2 main_c
  let main_v4 : FVec F S2048x512 .f32 := Host.absf main_arg2
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_c_2 : IVec S_ 32 := constantI S_ 32 4294967295#32
  let main_v9 : IVec S1024x128 32 := broadcastInDim S1024x128 ![] bcast_S_S1024x128 main_c_2
  let main_v10 : IVec S1024x128 1 := cmpi .sge main_arg1 main_v9
  let main_c_3 : IVec S_ 1 := constantI S_ 1 1#1
  let main_v11 : IVec S_ 1 := (fun x v => Host.reduce IntOp.andi x v reducesTo_S1024x128_S_d0_1 h_S_) main_v10 main_c_3
  let main_v12 : IVec S_ 1 := andi main_v8 main_v11
  let main_c_4 : IVec S_ 32 := constantI S_ 32 2048#32
  let main_v13 : IVec S1024x128 32 := broadcastInDim S1024x128 ![] bcast_S_S1024x128 main_c_4
  let main_v14 : IVec S1024x128 1 := cmpi .slt main_arg1 main_v13
  let main_c_5 : IVec S_ 1 := constantI S_ 1 1#1
  let main_v15 : IVec S_ 1 := (fun x v => Host.reduce IntOp.andi x v reducesTo_S1024x128_S_d0_1 h_S_) main_v14 main_c_5
  fn_part1 (F := F) main_v12 main_v15
-- ==== Kernel.lean ====
abbrev S1024x128x512 : Shape := ⟨3, ![1024, 128, 512]⟩
abbrev S1024x128 : Shape := ⟨2, ![1024, 128]⟩
abbrev S2048x512 : Shape := ⟨2, ![2048, 512]⟩
abbrev S131072x512 : Shape := ⟨2, ![131072, 512]⟩
abbrev S131072x1 : Shape := ⟨2, ![131072, 1]⟩
abbrev S512x512 : Shape := ⟨2, ![512, 512]⟩
abbrev S512x1 : Shape := ⟨2, ![512, 1]⟩
abbrev S512x2048 : Shape := ⟨2, ![512, 2048]⟩

abbrev nBuf : Space → Nat
  | .hbm => 8
  | .vmem => 7
  | .smem => 0
  | _ => 0

abbrev bufTy : (tb : Table) → Fin (tcTables nBuf tb) → BufTy
  | .hbm, ⟨0, _⟩ => ⟨S1024x128x512, .f32⟩
  | .hbm, ⟨1, _⟩ => ⟨S1024x128, .i32⟩
  | .hbm, ⟨2, _⟩ => ⟨S2048x512, .f32⟩
  | .hbm, ⟨3, _⟩ => ⟨S131072x512, .f32⟩
  | .hbm, ⟨4, _⟩ => ⟨S131072x1, .i32⟩
  | .hbm, ⟨5, _⟩ => ⟨S2048x512, .bf16⟩
  | .hbm, ⟨6, _⟩ => ⟨S131072x512, .f32⟩
  | .hbm, ⟨7, _⟩ => ⟨S1024x128x512, .f32⟩
  | .local _ .vmem, ⟨0, _⟩ => ⟨S512x512, .f32⟩
  | .local _ .vmem, ⟨1, _⟩ => ⟨S512x512, .f32⟩
  | .local _ .vmem, ⟨2, _⟩ => ⟨S512x1, .i32⟩
  | .local _ .vmem, ⟨3, _⟩ => ⟨S512x1, .i32⟩
  | .local _ .vmem, ⟨4, _⟩ => ⟨S2048x512, .bf16⟩
  | .local _ .vmem, ⟨5, _⟩ => ⟨S512x512, .f32⟩
  | .local _ .vmem, ⟨6, _⟩ => ⟨S512x512, .f32⟩
  | _, _ => ⟨S1024x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x128x512_S131072x512 : S1024x128x512.ShapeCasts S131072x512
  shapeCasts_S1024x128_S131072x1 : S1024x128.ShapeCasts S131072x1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x2048_d1_w32 : S512x2048.Iotas .tc 32 [1]
  broadcasts_S512x1_S512x2048 : S512x1.Broadcasts S512x2048
  natLt_1_32 : 1 < 32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S131072x512_S1024x128x512 : S131072x512.ShapeCasts S1024x128x512
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S131072x512.size a
  hwx0_0 : ∀ i : grid0.Coords, EltTy.bits .f32 = 32 ∨ (Rect.block (s := S131072x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S131072x1.size a
  hwx0_1 : ∀ i : grid0.Coords, EltTy.bits .i32 = 32 ∨ (Rect.block (s := S131072x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S131072x512.size a
  hwx0_3 : ∀ i : grid0.Coords, EltTy.bits .f32 = 32 ∨ (Rect.block (s := S131072x512) S512x512.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x128x512 : Shape := ⟨3, ![1024, 128, 512]⟩
abbrev S1024x128 : Shape := ⟨2, ![1024, 128]⟩
abbrev S2048x512 : Shape := ⟨2, ![2048, 512]⟩
abbrev S_ : Shape := ⟨0, ![]⟩
abbrev S1024x128x1 : Shape := ⟨3, ![1024, 128, 1]⟩

abbrev nBuf : Space → Nat
  | .hbm => 25
  | .vmem => 0
  | .smem => 0
  | _ => 0

abbrev bufTy : (tb : Table) → Fin (tcTables nBuf tb) → BufTy
  | .hbm, ⟨0, _⟩ => ⟨S1024x128x512, .f32⟩
  | .hbm, ⟨1, _⟩ => ⟨S1024x128, .i32⟩
  | .hbm, ⟨2, _⟩ => ⟨S2048x512, .f32⟩
  | .hbm, ⟨3, _⟩ => ⟨S_, .i32⟩
  | .hbm, ⟨4, _⟩ => ⟨S1024x128, .i32⟩
  | .hbm, ⟨5, _⟩ => ⟨S1024x128, .i1⟩
  | .hbm, ⟨6, _⟩ => ⟨S1024x128x1, .i1⟩
  | .hbm, ⟨7, _⟩ => ⟨S_, .i32⟩
  | .hbm, ⟨8, _⟩ => ⟨S_, .i32⟩
  | .hbm, ⟨9, _⟩ => ⟨S1024x128, .i32⟩
  | .hbm, ⟨10, _⟩ => ⟨S1024x128, .i32⟩
  | .hbm, ⟨11, _⟩ => ⟨S_, .i32⟩
  | .hbm, ⟨12, _⟩ => ⟨S1024x128, .i32⟩
  | .hbm, ⟨13, _⟩ => ⟨S1024x128, .i1⟩
  | .hbm, ⟨14, _⟩ => ⟨S_, .i32⟩
  | .hbm, ⟨15, _⟩ => ⟨S1024x128, .i32⟩
  | .hbm, ⟨16, _⟩ => ⟨S1024x128, .i32⟩
  | .hbm, ⟨17, _⟩ => ⟨S1024x128, .i32⟩
  | .hbm, ⟨18, _⟩ => ⟨S1024x128x1, .i32⟩
  | .hbm, ⟨19, _⟩ => ⟨S1024x128x512, .f32⟩
  | .hbm, ⟨20, _⟩ => ⟨S_, .f32⟩
  | .hbm, ⟨21, _⟩ => ⟨S1024x128x512, .i1⟩
  | .hbm, ⟨22, _⟩ => ⟨S1024x128x512, .f32⟩
  | .hbm, ⟨23, _⟩ => ⟨S1024x128x512, .f32⟩
  | .hbm, ⟨24, _⟩ => ⟨S1024x128x512, .f32⟩
  | _, _ => ⟨S1024x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  bcast_S1024x128x1_S1024x128x512_0_1_2 : S1024x128x1.BroadcastsInDim S1024x128x512 (![0, 1, 2] : Fin 3 → Fin S1024x128x512.rank)
  bcast_S_S1024x128x512 : S_.BroadcastsInDim S1024x128x512 (![] : Fin 0 → Fin S1024x128x512.rank)
  gather_S2048x512_S1024x128x1_S1024x128x512_2_0_n_n_0_2_1512_wf : GatherDims.WF S2048x512 S1024x128x1 S1024x128x512 [2] [0] [] [0] [] 2 ![1, 512]

variable [Facts₀]

def gather_S2048x512_S1024x128x1_S1024x128x512_2_0_n_n_0_2_1512 : GatherDims S2048x512 S1024x128x1 S1024x128x512 where
  offsetDims := [2]
  collapsedSliceDims := [0]
  operandBatchingDims := []
  startIndicesBatchingDims := []
  startIndexMap := [0]
  indexVectorDim := 2
  sliceSizes := ![1, 512]
  wf := gather_S2048x512_S1024x128x1_S1024x128x512_2_0_n_n_0_2_1512_wf

class Facts : Prop extends Facts₀ where

variable [Facts]
-- ==== Proof.OneHot.lean ====
/-
  Selecting a table row by a one-hot sum, over the extended reals.

  An index word `a` is either the sentinel −1 or a row number n < 2048. The kernel compares `a` with each
  column number k, turns the bit into 0 or 1, and sums (bit k) · p k over the 2048 rows of a table column p.
  For a row number the only non-zero term is k = n, so the sum is p n; for the sentinel no k matches and the
  sum is 0. (On the extended reals 0 · y = 0 and 1 · y = y for EVERY y, infinite ones included, so no
  finiteness of the table is used.) The reference instead clips the word at 0, wraps a negative word by the
  table's height, reads the row at the result clamped into the table, and replaces it by 0 when the word is the
  sentinel: on the same two kinds of word that is p n and 0 again.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.OneHot

open Idealize.ShloMosaic Idealize.ShloMosaic.ValueIdx

/-- The word −1. -/
abbrev sentinel : BitVec 32 := 4294967295#32

/-- An index word that is at least −1 and below 2048 (both compares signed, as bits) is the sentinel or the word of
    a row number. -/
theorem sentinel_or_row {a : BitVec 32} (hlo : IntOp.cmpi .sge a sentinel = 1#1) (hhi : IntOp.cmpi .slt a 2048#32 = 1#1) :
    a = sentinel ∨ ∃ n : Fin 2048, a = BitVec.ofNat 32 n.val := by
  have hlo' : sentinel.sle a = true := (StableHlo.Predicate.ofBool_eq_one_iff _).mp hlo
  have hhi' : a.slt 2048#32 = true := (StableHlo.Predicate.ofBool_eq_one_iff _).mp hhi
  rw [BitVec.sle_iff_toInt_le] at hlo'
  rw [BitVec.slt_iff_toInt_lt] at hhi'
  have hs : sentinel.toInt = -1 := by decide
  have h2 : (2048#32 : BitVec 32).toInt = 2048 := by decide
  rw [hs] at hlo'
  rw [h2] at hhi'
  have hlt : a.toNat < 2 ^ 32 := a.isLt
  rw [BitVec.toInt_eq_toNat_cond] at hlo' hhi'
  by_cases hc : 2 * a.toNat < 2 ^ 32
  · rw [if_pos hc] at hlo' hhi'
    refine Or.inr ⟨⟨a.toNat, by omega⟩, ?_⟩
    exact BitVec.eq_of_toNat_eq (by rw [BitVec.toNat_ofNat]; exact (Nat.mod_eq_of_lt hlt).symm)
  · rw [if_neg hc] at hlo' hhi'
    refine Or.inl (BitVec.eq_of_toNat_eq ?_)
    show a.toNat = 4294967295
    omega

/-- The kernel's one-hot entry for index word `a` and column `k`: the equality bit, widened unsigned to a word, read
    as a signed integer, as an extended real. -/
def bit (a : BitVec 32) (k : Nat) : EReal :=
  ((((IntOp.cmpi .eq a (BitVec.ofNat 32 k)).setWidth 32).toInt : ℝ) : EReal)

theorem bit_eq (a : BitVec 32) (k : Nat) : bit a k = if a = BitVec.ofNat 32 k then 1 else 0 := by
  unfold bit
  by_cases h : a = BitVec.ofNat 32 k
  · rw [if_pos h, StableHlo.Predicate.cmpi_eq_iff.mpr h]
    have : ((1#1 : BitVec 1).setWidth 32).toInt = 1 := by decide
    rw [this]; simp
  · rw [if_neg h]
    have h0 : IntOp.cmpi .eq a (BitVec.ofNat 32 k) = 0#1 :=
      eq_zero_of_ne_one fun h1 => h (StableHlo.Predicate.cmpi_eq_iff.mp h1)
    rw [h0]
    have : ((0#1 : BitVec 1).setWidth 32).toInt = 0 := by decide
    rw [this]; simp

/-- Two row numbers with the same word are equal. -/
theorem ofNat_inj {n k : Nat} (hn : n < 2048) (hk : k < 2048) (h : BitVec.ofNat 32 n = BitVec.ofNat 32 k) : n = k := by
  have := congrArg BitVec.toNat h
  rw [BitVec.toNat_ofNat, BitVec.toNat_ofNat, Nat.mod_eq_of_lt (by omega), Nat.mod_eq_of_lt (by omega)] at this
  exact this

/-- The sentinel is no row number's word. -/
theorem sentinel_ne_row (k : Fin 2048) : sentinel ≠ BitVec.ofNat 32 k.val := by
  intro h
  have hk := k.isLt
  have h1 : (BitVec.ofNat 32 k.val).toNat = k.val := by
    rw [BitVec.toNat_ofNat]; exact Nat.mod_eq_of_lt (by omega)
  have hs : sentinel.toNat = 4294967295 := by decide
  have := congrArg BitVec.toNat h
  rw [h1, hs] at this
  omega

/-- THE ONE-HOT SUM at a row number: the row's entry. -/
theorem sum_bit_row (p : Fin 2048 → EReal) (n : Fin 2048) :
    ∑ k : Fin 2048, bit (BitVec.ofNat 32 n.val) k.val * p k = p n := by
  rw [Finset.sum_eq_single n]
  · rw [bit_eq, if_pos rfl, one_mul]
  · intro k _ hk
    rw [bit_eq, if_neg (fun h => hk (Fin.ext (ofNat_inj n.isLt k.isLt h)).symm), zero_mul]
  · intro h; exact absurd (Finset.mem_univ n) h

/-- THE ONE-HOT SUM at the sentinel: nothing matches, the sum is zero. -/
theorem sum_bit_sentinel (p : Fin 2048 → EReal) : ∑ k : Fin 2048, bit sentinel k.val * p k = 0 := by
  refine Finset.sum_eq_zero fun k _ => ?_
  rw [bit_eq, if_neg (sentinel_ne_row k), zero_mul]

/-- The reference's start row for index word `a`: the word clipped at 0, then wrapped by the table's height if
    negative (it never is after the clip). -/
def start (a : BitVec 32) : BitVec 32 :=
  Scalar.select (IntOp.cmpi .slt (IntOp.maxsi 0#32 a) 0#32) (IntOp.addi (IntOp.maxsi 0#32 a) 2048#32) (IntOp.maxsi 0#32 a)

/-- At a row number's word the start row is the word itself. -/
theorem start_row (n : Fin 2048) : start (BitVec.ofNat 32 n.val) = BitVec.ofNat 32 n.val := by
  have hn := n.isLt
  have hi : (BitVec.ofNat 32 n.val).toInt = n.val := StableHlo.Predicate.toInt_ofNat_small _ (by omega)
  have hs : (BitVec.ofNat 32 n.val).slt 0#32 = false := by
    rw [Bool.eq_false_iff]; intro h
    rw [BitVec.slt_iff_toInt_lt, hi] at h
    have : (0#32 : BitVec 32).toInt = 0 := by decide
    omega
  have hm : IntOp.maxsi 0#32 (BitVec.ofNat 32 n.val) = BitVec.ofNat 32 n.val := by
    unfold IntOp.maxsi; rw [hs]; rfl
  unfold start
  rw [hm]
  have hc : IntOp.cmpi .slt (BitVec.ofNat 32 n.val) 0#32 = 0#1 := by
    show BitVec.ofBool ((BitVec.ofNat 32 n.val).slt 0#32) = 0#1
    rw [hs]; rfl
  rw [hc, select_zero]

/-- The row the reference's gather reads: the start row as a signed integer, clamped into the table. -/
def rowOf (a : BitVec 32) : Fin 2048 := ⟨min (start a).toInt.toNat (2048 - 1), by omega⟩

theorem rowOf_row (n : Fin 2048) : rowOf (BitVec.ofNat 32 n.val) = n := by
  have hn := n.isLt
  apply Fin.ext
  show min (start (BitVec.ofNat 32 n.val)).toInt.toNat (2048 - 1) = n.val
  rw [start_row, StableHlo.Predicate.toInt_ofNat_small _ (by omega)]
  simp only [Int.toNat_natCast]
  omega

/-- ONE-HOT SUM = CLIPPED GATHER, MASKED: for an index word in [−1, 2048) the sum of (bit k) · p k over the rows is the
    reference's entry — the row `rowOf a` of `p`, replaced by zero when the word is the sentinel. -/
theorem sum_bit_eq_select {a : BitVec 32} (hlo : IntOp.cmpi .sge a sentinel = 1#1) (hhi : IntOp.cmpi .slt a 2048#32 = 1#1)
    (p : Fin 2048 → EReal) :
    ∑ k : Fin 2048, bit a k.val * p k = Scalar.select (IntOp.cmpi .ne a sentinel) (p (rowOf a)) (0 : EReal) := by
  rcases sentinel_or_row hlo hhi with rfl | ⟨n, rfl⟩
  · rw [sum_bit_sentinel]
    have : IntOp.cmpi .ne sentinel sentinel = 0#1 := by decide
    rw [this, select_zero]
  · rw [sum_bit_row, rowOf_row]
    have hne : IntOp.cmpi .ne (BitVec.ofNat 32 n.val) sentinel = 1#1 := by
      show BitVec.ofBool (BitVec.ofNat 32 n.val != sentinel) = 1#1
      rw [StableHlo.Predicate.ofBool_eq_one_iff]
      simp only [bne_iff_ne, ne_eq]
      exact fun h => sentinel_ne_row n h.symm
    rw [hne, select_one]

/-! ## The result both programs compute -/

/-- Entry (b, v, d): x's entry plus the one-hot sum of the index word idx[b, v] down column d of the table. -/
def gatherAdd (x : (⟨3, ![1024, 128, 512]⟩ : Shape).Idx → EReal) (w : (⟨2, ![1024, 128]⟩ : Shape).Idx → BitVec 32)
    (p : (⟨2, ![2048, 512]⟩ : Shape).Idx → EReal) : (⟨3, ![1024, 128, 512]⟩ : Shape).Idx → EReal :=
  fun j => x j + ∑ k : Fin 2048, bit (w (ix2 (j 0 : Fin 1024) (j 1 : Fin 128))) k.val * p (ix2 k (j 2 : Fin 512))

theorem gatherAdd_at (x : (⟨3, ![1024, 128, 512]⟩ : Shape).Idx → EReal) (w : (⟨2, ![1024, 128]⟩ : Shape).Idx → BitVec 32)
    (p : (⟨2, ![2048, 512]⟩ : Shape).Idx → EReal) (b : Fin 1024) (v : Fin 128) (d : Fin 512) :
    gatherAdd x w p (ix3 b v d) = x (ix3 b v d) + ∑ k : Fin 2048, bit (w (ix2 b v)) k.val * p (ix2 k d) := rfl

/-- Where the index word idx[b, v] is in [−1, 2048), entry (b, v, d) is x's entry plus the clipped, clamped gather of
    the table, masked to zero at the sentinel. -/
theorem gatherAdd_eq_masked (x : (⟨3, ![1024, 128, 512]⟩ : Shape).Idx → EReal) (w : (⟨2, ![1024, 128]⟩ : Shape).Idx → BitVec 32)
    (p : (⟨2, ![2048, 512]⟩ : Shape).Idx → EReal) (b : Fin 1024) (v : Fin 128) (d : Fin 512)
    (hlo : IntOp.cmpi .sge (w (ix2 b v)) sentinel = 1#1) (hhi : IntOp.cmpi .slt (w (ix2 b v)) 2048#32 = 1#1) :
    gatherAdd x w p (ix3 b v d)
      = x (ix3 b v d) + Scalar.select (IntOp.cmpi .ne (w (ix2 b v)) sentinel) (p (ix2 (rowOf (w (ix2 b v))) d)) (0 : EReal) := by
  rw [gatherAdd_at, sum_bit_eq_select hlo hhi fun k => p (ix2 k d)]

end Cert.OneHot

end
-- ==== Proof.LibContract.lean ====
/-
  A matrix product with ONE contracted axis, read at an output index over the extended reals.

  The matrix unit's product into a zero accumulator is, at an output index j, the sum over the contraction
  index of the products of the two operands at the operand indices the dimension numbers give. When a single
  axis is contracted, of extent K, the contraction index is that axis's coordinate, and the sum is a sum over
  `Fin K`. The caller names the operand index at coordinate k on each side.
-/
import Idealize.ShloMosaic.PureOps.Ideal
import Idealize.ShloMosaic.PureOps.Ideal.Laws
import Idealize.ShloMosaic.Lib.ValueIdx

noncomputable section

open scoped BigOperators

namespace Idealize.ShloMosaic.Contract

open Idealize.ShloMosaic Idealize.ShloMosaic.ValueIdx

/-- With no batch axes and ONE free (non-contracted) axis on the left operand, the left operand's index on that axis
    is the output index's first coordinate. (The library has the companion fact for the contracted axis,
    `DotDims.lhsIdx_val_of_single`; this is proved the same way: the position of the axis in a one-element list is 0.) -/
theorem lhsIdx_val_of_free {sl sr so : Shape} (d : DotDims sl sr so) {nl : Fin sl.rank} (hb : d.lhsBatch = [])
    (hn : d.lhsNonContracting = [nl]) (h0 : 0 < so.rank) (j : so.Idx) (k : d.contr.Idx) :
    (d.lhsIdx j k nl).val = (j ⟨0, h0⟩).val := by
  have hmem : nl ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one free axis on the left and ONE free axis on the right operand, the right operand's index
    on its free axis is the output index's second coordinate. -/
theorem rhsIdx_val_of_free {sl sr so : Shape} (d : DotDims sl sr so) {nl : Fin sl.rank} {nr : Fin sr.rank}
    (hbl : d.lhsBatch = []) (hbr : d.rhsBatch = []) (hnl : d.lhsNonContracting = [nl]) (hnr : d.rhsNonContracting = [nr])
    (h1 : 1 < so.rank) (j : so.Idx) (k : d.contr.Idx) :
    (d.rhsIdx j k nr).val = (j ⟨1, h1⟩).val := by
  have hmem : nr ∈ d.rhsNonContracting := by rw [hnr]; exact List.mem_singleton.mpr rfl
  unfold DotDims.rhsIdx
  rw [dif_neg (by rw [hbr]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hbl, hnl, hnr])

/-- A product into the zero accumulator with one contracted axis of extent `K`, at output index `j`: the sum over
    `k : Fin K` of the left operand at `li k` times the right operand at `ri k`, where `li k` and `ri k` are the
    operand indices of contraction coordinate `k`. -/
theorem matmul_zero_single {sl sr so : Shape} {φ₁ φ₂ : FTy} (d : DotDims sl sr so) (prec : Option ContractPrecision) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.matmul d prec L R (constant so .f32 0x00000000#32) j = ∑ k : Fin K, L (li k) * R (ri k) := by
  rw [Ideal.matmul_constant_zero_apply, ← Equiv.sum_comp (contrEquiv1 d K hr hs).symm]
  exact Finset.sum_congr rfl fun k _ => by rw [hl k, hrr k]

/-- ROWS TIMES COLUMNS: a product of an `A × K` by a `K × B` matrix into the zero accumulator (left axis 1 against right
    axis 0, no batch axes), at entry `(p, h)`: the sum over `k` of `L[p,k] · R[k,h]`. At a literal dimension record every
    hypothesis is `rfl`. -/
theorem matmul_zero_rows_cols {A K B : Nat} {φ₁ φ₂ : FTy}
    (d : DotDims (⟨2, ![A, K]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 p k) * R (ix2 k h) := by
  refine matmul_zero_single d prec K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- COLUMNS TIMES COLUMNS: a product of a `K × A` by a `K × B` matrix into the zero accumulator, contracting the FIRST
    axis of both (the left operand used transposed), at entry `(p, h)`: the sum over `k` of `L[k,p] · R[k,h]`. -/
theorem matmul_zero_cols_cols {A K B : Nat} {φ₁ φ₂ : FTy}
    (d : DotDims (⟨2, ![K, A]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [1]) (hnr : d.rhsNonContracting = [1])
    (hcl : d.lhsContracting = [0]) (hcr : d.rhsContracting = [0])
    (L : FVec Ideal (⟨2, ![K, A]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 k p) * R (ix2 k h) := by
  refine matmul_zero_single d prec K hr hs L R (ix2 p h) (fun k => ix2 k p) (fun k => ix2 k h) (fun k => ?_) (fun k => ?_)
  · have hk := contrEquiv1_symm_val d K hr hs k
    exact funext fun a => Fin.ext (by
      match a with
      | ⟨0, _⟩ => exact (d.lhsIdx_val_of_single hcl _ _).trans hk
      | ⟨1, _⟩ => exact lhsIdx_val_of_free d hbl hnl Nat.zero_lt_two _ _)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- The host's product with one contracted axis, the same way. -/
theorem dotGeneral_single {sl sr so : Shape} {φ₁ φ₂ : FTy} (d : DotDims sl sr so) (prec : Option ContractPrecision)
    (sched : HostSchedule) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.dotGeneral d prec sched L R j = ∑ k : Fin K, L (li k) * R (ri k) := by
  rw [Ideal.dotGeneral_apply, ← Equiv.sum_comp (contrEquiv1 d K hr hs).symm]
  exact Finset.sum_congr rfl fun k _ => by rw [hl k, hrr k]

/-- The host's product of an `A × K` by a `K × B` matrix (left axis 1 against right axis 0), at entry `(p, h)`. -/
theorem dotGeneral_rows_cols {A K B : Nat} {φ₁ φ₂ : FTy}
    (d : DotDims (⟨2, ![A, K]⟩ : Shape) (⟨2, ![K, B]⟩ : Shape) (⟨2, ![A, B]⟩ : Shape)) (prec : Option ContractPrecision)
    (sched : HostSchedule)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.dotGeneral d prec sched L R (ix2 p h) = ∑ k : Fin K, L (ix2 p k) * R (ix2 k h) := by
  refine dotGeneral_single d prec sched K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

end Idealize.ShloMosaic.Contract

end
-- ==== Proof.KernelBlock.lean ====
/-
  The kernel body's result at an index.

  At entry (r, d) of a block the body stores the x block's entry plus a matrix product: the 512 × 2048 one-hot matrix
  of the block's index words (row r has a one in the column whose number is the word, zeros elsewhere; all zeros for a
  word that is no column number) times the whole 2048 × 512 table. Read at (r, d) that product is the sum over the
  table's rows k of (one-hot bit of word r at k) · table[k, d].
-/
import proofs.«429446_j58892591563169_1_alg».proof.Proof.Gen.KernelIdeal.Skeleton
import proofs.«429446_j58892591563169_1_alg».proof.Proof.OneHot
import proofs.«429446_j58892591563169_1_alg».proof.Proof.LibContract
import Idealize.ShloMosaic.Lib.Pipeline.Value
import Idealize.ShloMosaic.Lib.ValueIdx

noncomputable section

open scoped BigOperators

namespace Cert.KernelIdeal.Block

open Cert.KernelIdeal Cert.KernelIdeal.Gen
open Idealize.ShloMosaic Idealize.ShloMosaic.ValueIdx

/-- The one-hot matrix the body builds from a block's index words, as the body spells it: the words broadcast along
    the columns, compared with the column numbers, the bit widened, converted to a float and narrowed. -/
abbrev onehot (v0 : Vec Ideal S512x1 .i32) : FVec Ideal S512x2048 .bf16 :=
  truncf .bf16 (sitofp .f32 (extui 32 (cmpi .eq (broadcastTo S512x2048 v0 broadcasts_S512x1_S512x2048)
    (iota .tc S512x2048 32 [1] iota_S512x2048_d1_w32)) natLt_1_32)) bitsLt_bf16_f32

/-- Entry (r, k) of the one-hot matrix is the one-hot bit of row r's index word at column k. -/
theorem onehot_at (v0 : Vec Ideal S512x1 .i32) (r : Fin 512) (k : Fin 2048) :
    onehot v0 (ix2 r k) = Cert.OneHot.bit (v0 (ix2 r (0 : Fin 1))) k.val := by
  have hb : broadcastTo S512x2048 v0 broadcasts_S512x1_S512x2048 (ix2 r k) = v0 (ix2 r (0 : Fin 1)) := by
    refine broadcastTo_apply v0 broadcasts_S512x1_S512x2048 (ix2 r k) (ix2 r (0 : Fin 1)) fun a => ?_
    match a with
    | ⟨0, _⟩ => show r.val = if (512 : Nat) = 1 then 0 else r.val; rw [if_neg (by decide)]
    | ⟨1, _⟩ => show (0 : Nat) = if (1 : Nat) = 1 then 0 else k.val; rw [if_pos rfl]
  have hi : iota .tc S512x2048 32 [1] iota_S512x2048_d1_w32 (ix2 r k) = BitVec.ofNat 32 k.val :=
    iota_single_apply .tc S512x2048 32 1 iota_S512x2048_d1_w32 (ix2 r k)
  unfold Cert.OneHot.bit
  rw [← hb, ← hi]
  rfl

/-- THE BODY'S RESULT AT (r, d): the x block's entry plus the one-hot sum down column d of the table. -/
theorem pay_at (v0 : Vec Ideal S512x1 .i32) (v8 : Vec Ideal S2048x512 .bf16) (v11 : Vec Ideal S512x512 .f32)
    (r : Fin 512) (d : Fin 512) :
    k0_pay1 (F := Ideal) v0 v8 v11 (ix2 r d)
      = v11 (ix2 r d) + ∑ k : Fin 2048, Cert.OneHot.bit (v0 (ix2 r (0 : Fin 1))) k.val * v8 (ix2 k d) := by
  have hpay : k0_pay1 (F := Ideal) v0 v8 v11
      = addf (v11 : FVec Ideal S512x512 .f32) (matmul (φ₁ := .bf16) (φ₂ := .bf16) dot_S512x2048_S2048x512_S512x512_1_0_0_1_n_n none (onehot v0)
          (v8 : FVec Ideal S2048x512 .bf16) (constant S512x512 .f32 0x00000000#32)) := by
    unfold k0_pay1
    dsimp only
    rw [shapeCast_self v11, shapeCast_self v8, shapeCast_self v0]
  rw [hpay, addf_apply]
  refine congrArg (v11 (ix2 r d) + ·) ?_
  refine (Idealize.ShloMosaic.Contract.matmul_zero_rows_cols (φ₁ := .bf16) (φ₂ := .bf16) dot_S512x2048_S2048x512_S512x512_1_0_0_1_n_n none
    rfl rfl rfl rfl rfl rfl rfl rfl (onehot v0) (v8 : FVec Ideal S2048x512 .bf16) r d).trans ?_
  exact Finset.sum_congr rfl fun k _ => congrArg (· * v8 (ix2 k d)) (onehot_at v0 r k)

end Cert.KernelIdeal.Block

end
-- ==== Proof.KernelValue.lean ====
/-
  The kernel's result array.

  The flattened arrays: x as 131072 rows of 512, the index words as a column of 131072, the table as it is (narrowing
  its format changes nothing on the extended reals). Grid point t works on rows 512·t … 512·t + 511: it reads that block
  of x, those index words and the whole table, and writes the block of the output. So row n of the output is row n of x
  plus, column by column, the one-hot sum of index word n down the table's column; the 256 blocks tile the output. The
  program's result is that array viewed as 1024 × 128 × 512, entry (b, v, d) being row 128·b + v, column d.
-/
import proofs.«429446_j58892591563169_1_alg».proof.Proof.Gen.KernelIdeal.Frame
import proofs.«429446_j58892591563169_1_alg».proof.Proof.KernelBlock
import Idealize.ShloMosaic.Lib.Pipeline.Value
import Idealize.ShloMosaic.Lib.StableHlo.Run
import Idealize.ShloMosaic.Lib.ValueIdx

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The arrays the region finds -/

/-- The region's x operand is the argument x flattened to rows. -/
theorem V_x (c : Dev nD) : (V m c main_v0 : S131072x512.Idx → EReal)
    = shapeCast S131072x512 (m ((c : Thread nD τ).loc main_arg0)) shapeCasts_S1024x128x512_S131072x512 := by
  show StableHlo.after hostOps0 (fun b => m (c, b)) (Proc.devRef .tc main_v0) = _
  after_results
  rfl

/-- The region's index operand is the argument index array flattened to a column. -/
theorem V_w (c : Dev nD) : (V m c main_v1 : S131072x1.Idx → BitVec 32)
    = shapeCast S131072x1 (m ((c : Thread nD τ).loc main_arg1)) shapeCasts_S1024x128_S131072x1 := by
  show StableHlo.after hostOps0 (fun b => m (c, b)) (Proc.devRef .tc main_v1) = _
  after_results
  rfl

/-- The region's table operand is the argument table: a change of float format is the identity here. -/
theorem V_p (c : Dev nD) : (V m c main_v2 : S2048x512.Idx → EReal) = m ((c : Thread nD τ).loc main_arg2) := by
  show StableHlo.after hostOps0 (fun b => m (c, b)) (Proc.devRef .tc main_v2) = _
  after_results
  rfl

/-! ## The output array as one function of the flattened arrays -/

/-- Row n, column d of the output: x's entry plus the one-hot sum of index word n down column d of the table. -/
def rows (xf : S131072x512.Idx → EReal) (wf : S131072x1.Idx → BitVec 32) (pf : S2048x512.Idx → EReal) :
    S131072x512.Idx → EReal :=
  fun i => xf i + ∑ k : Fin 2048, Cert.OneHot.bit (wf (ix2 (i 0 : Fin 131072) (0 : Fin 1))) k.val * pf (ix2 k (i 1 : Fin 512))

theorem hz : (![0, 0] : Fin 2 → Nat) = fun _ => 0 := funext fun a => by fin_cases a <;> rfl

/-- The printed index maps, decided over the grid: the x, index and output windows are at block row t, the table's
    window stays at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 256 := lt_of_lt_of_eq t.isLt N_0

/-- Where entry (r, d) of point t's x block sits in the flattened x. -/
theorem emb0 (t : Fin cfg0.N) (r : Fin 512) (d : Fin 512) :
    ((cfg0.win 0).blk t).view.emb (ix2 r d) = ix2 (⟨t.val * 512 + r.val, by have := t_lt t; omega⟩ : Fin 131072) d := by
  obtain ⟨e0, e1, -⟩ := idx_facts t
  funext a; apply Fin.ext
  match a with
  | ⟨0, _⟩ => show win0_0.index t (0 : Fin 2) * 512 + 1 * r.val = t.val * 512 + r.val; omega
  | ⟨1, _⟩ => show win0_0.index t (1 : Fin 2) * 512 + 1 * d.val = d.val; omega

/-- Where index word r of point t's block sits in the flattened index column. -/
theorem emb1 (t : Fin cfg0.N) (r : Fin 512) :
    ((cfg0.win 1).blk t).view.emb (ix2 r (0 : Fin 1)) = ix2 (⟨t.val * 512 + r.val, by have := t_lt t; omega⟩ : Fin 131072) (0 : Fin 1) := by
  obtain ⟨-, -, e0, e1, -⟩ := idx_facts t
  funext a; apply Fin.ext
  match a with
  | ⟨0, _⟩ => show win0_1.index t (0 : Fin 2) * 512 + 1 * r.val = t.val * 512 + r.val; omega
  | ⟨1, _⟩ => show win0_1.index t (1 : Fin 2) * 1 + 1 * 0 = 0; omega

/-- The table's block is the whole table at every point. -/
theorem emb2 (t : Fin cfg0.N) (k : Fin 2048) (d : Fin 512) :
    ((cfg0.win 2).blk t).view.emb (ix2 k d) = ix2 k d := by
  obtain ⟨-, -, -, -, e0, e1, -⟩ := idx_facts t
  funext a; apply Fin.ext
  match a with
  | ⟨0, _⟩ => show win0_2.index t (0 : Fin 2) * 2048 + 1 * k.val = k.val; omega
  | ⟨1, _⟩ => show win0_2.index t (1 : Fin 2) * 512 + 1 * d.val = d.val; omega

/-- Where entry (r, d) of point t's output block sits in the output array. -/
theorem emb3 (t : Fin cfg0.N) (r : Fin 512) (d : Fin 512) :
    ((cfg0.win 3).blk t).view.emb (ix2 r d) = ix2 (⟨t.val * 512 + r.val, by have := t_lt t; omega⟩ : Fin 131072) d := by
  obtain ⟨-, -, -, -, -, -, e0, e1⟩ := idx_facts t
  funext a; apply Fin.ext
  match a with
  | ⟨0, _⟩ => show win0_3.index t (0 : Fin 2) * 512 + 1 * r.val = t.val * 512 + r.val; omega
  | ⟨1, _⟩ => show win0_3.index t (1 : Fin 2) * 512 + 1 * d.val = d.val; omega

/-- The body's result at (r, d), for blocks that are rows n, index word n and the whole table, is `rows` at (n, d). -/
theorem rows_of_blocks (xf : S131072x512.Idx → EReal) (wf : S131072x1.Idx → BitVec 32) (pf : S2048x512.Idx → EReal)
    (x0 : Vec Ideal S512x512 .f32) (x1 : Vec Ideal S512x1 .i32) (x2 : Vec Ideal S2048x512 .bf16)
    (n : Fin 131072) (r d : Fin 512)
    (h0 : x0 (ix2 r d) = xf (ix2 n d)) (h1 : x1 (ix2 r (0 : Fin 1)) = wf (ix2 n (0 : Fin 1)))
    (h2 : ∀ k : Fin 2048, x2 (ix2 k d) = pf (ix2 k d)) :
    k0_pay1 (F := Ideal) x1 x2 x0 (ix2 r d) = rows xf wf pf (ix2 n d) := by
  rw [Cert.KernelIdeal.Block.pay_at, h0, h1]
  unfold rows
  exact congrArg (xf (ix2 n d) + ·) (Finset.sum_congr rfl fun k _ => by rw [h2 k])

/-- WHAT POINT t WRITES BACK is block t of `rows` of the arrays the region finds. -/
theorem flushed_eq (c : Dev nD) (t : Fin cfg0.N) :
    (dats m 0 c).flushed 3 t
      = ((cfg0.win 3).blk t).view.read (Elt Ideal) (rows (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S512x1) hz, View.ld_unit_zero (S := S2048x512) hz, View.ld_unit_zero (S := S512x512) hz]
  funext j
  obtain ⟨r, d, rfl⟩ : ∃ (r : Fin 512) (d : Fin 512), j = ix2 r d := ⟨j 0, j 1, eq_ix2 j⟩
  show k0_pay1 (F := Ideal) (iblk m c 1 t) (iblk m c 2 t) (iblk m c 0 t) (ix2 r d)
    = rows (V m c main_v0) (V m c main_v1) (V m c main_v2) (((cfg0.win 3).blk t).view.emb (ix2 r d))
  rw [emb3]
  refine rows_of_blocks (V m c main_v0) (V m c main_v1) (V m c main_v2) (iblk m c 0 t) (iblk m c 1 t) (iblk m c 2 t)
    (⟨t.val * 512 + r.val, by have := t_lt t; omega⟩ : Fin 131072) r d ?_ ?_ (fun k => ?_)
  · show V m c main_v0 (((cfg0.win 0).blk t).view.emb (ix2 r d)) = _
    rw [emb0]
  · show V m c main_v1 (((cfg0.win 1).blk t).view.emb (ix2 r (0 : Fin 1))) = _
    rw [emb1]
  · show V m c main_v2 (((cfg0.win 2).blk t).view.emb (ix2 k d)) = _
    rw [emb2]

/-- An index of the output array is in point t's block iff each coordinate is in the block's range on its axis. -/
theorem mem_blk (t : Fin cfg0.N) (i : S131072x512.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v3).slice (win0_3.rect t)).set ↔ _
  rw [View.set_slice_whole, Rect.mem_set_unit]
  exact Iff.rfl

/-- The blocks tile the output: row n lies in block n / 512. -/
theorem cover (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  have hN : cfg0.N = 256 := N_0
  refine ⟨⟨(i 0).val / 512, by rw [hN]; omega⟩, flush0_3 _, ?_⟩
  obtain ⟨-, -, -, -, -, -, e0, e1⟩ := idx_facts ⟨(i 0).val / 512, by rw [hN]; omega⟩
  rw [mem_blk]
  intro a
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 512 ≤ (i 1).val ∧ (i 1).val < win0_3.index _ (1 : Fin 2) * 512 + 512
    rw [e1]; omega

/-- THE OUTPUT ARRAY after the run. -/
theorem final (c : Dev nD) :
    (dats m 0 c).arrAt 3 cfg0.N = rows (V m c main_v0) (V m c main_v1) (V m c main_v2) :=
  (dats m 0 c).arrAt_eq_of_cover 3 _ (fun t _ => flushed_eq m c t) cover

/-! ## The program's result: the output array viewed as 1024 × 128 × 512 -/

theorem tail_eq (c : Dev nD) :
    Pipeline.afterTail₀ cfgs (dats m) 0 (V0 m) [hostOps1] c main_v4
      = shapeCast S1024x128x512 (rows (V m c main_v0) (V m c main_v1) (V m c main_v2)) shapeCasts_S131072x512_S1024x128x512 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = rows (V m c main_v0) (V m c main_v1) (V m c main_v2) :=
    (Pipeline.withArrays_arr spec0 launch0.win.arr_inj c _ _ 3).trans (final m c)
  rw [e]
  rfl

/-- The flattened rows viewed as 1024 × 128 × 512: entry (b, v, d) is row 128·b + v, column d, whose x entry is
    x[b, v, d] and whose index word is idx[b, v]. -/
theorem view_rows (x : S1024x128x512.Idx → EReal) (w : S1024x128.Idx → BitVec 32) (p : S2048x512.Idx → EReal) :
    shapeCast S1024x128x512 (rows (shapeCast S131072x512 x shapeCasts_S1024x128x512_S131072x512)
      (shapeCast S131072x1 w shapeCasts_S1024x128_S131072x1) p) shapeCasts_S131072x512_S1024x128x512
      = Cert.OneHot.gatherAdd x w p := by
  funext j
  obtain ⟨b, v, d, rfl⟩ : ∃ (b : Fin 1024) (v : Fin 128) (d : Fin 512), j = ix3 b v d := ⟨j 0, j 1, j 2, eq_ix3 j⟩
  have hn : b.val * 128 + v.val < 131072 := by have := b.isLt; have := v.isLt; omega
  have hx : shapeCast S131072x512 x shapeCasts_S1024x128x512_S131072x512 (ix2 (⟨b.val * 128 + v.val, hn⟩ : Fin 131072) d)
      = x (ix3 b v d) :=
    shapeCast_apply x _ _ _ (by rw [Shape.rowMajor_val_two, Shape.rowMajor_val_three]; rfl)
  have hw : shapeCast S131072x1 w shapeCasts_S1024x128_S131072x1 (ix2 (⟨b.val * 128 + v.val, hn⟩ : Fin 131072) (0 : Fin 1))
      = w (ix2 b v) :=
    shapeCast_apply w _ _ _ (by
      rw [Shape.rowMajor_val_two, Shape.rowMajor_val_two]
      show b.val * 128 + v.val = (b.val * 128 + v.val) * 1 + 0
      omega)
  rw [shapeCast_apply _ shapeCasts_S131072x512_S1024x128x512 (ix3 b v d) (ix2 (⟨b.val * 128 + v.val, hn⟩ : Fin 131072) d)
    (by rw [Shape.rowMajor_val_two, Shape.rowMajor_val_three]; rfl), Cert.OneHot.gatherAdd_at]
  unfold rows
  rw [hx]
  exact congrArg (x (ix3 b v d) + ·) (Finset.sum_congr rfl fun k _ => congrArg (fun a => Cert.OneHot.bit a k.val * p (ix2 k d)) hw)

/-- THE PROGRAM'S RESULT as a function of its argument arrays. -/
theorem result_eq (c : Dev nD) :
    Pipeline.afterTail₀ cfgs (dats m) 0 (V0 m) [hostOps1] c main_v4
      = Cert.OneHot.gatherAdd (m ((c : Thread nD τ).loc main_arg0)) (m ((c : Thread nD τ).loc main_arg1))
          (m ((c : Thread nD τ).loc main_arg2)) := by
  rw [tail_eq, V_x, V_w, V_p]
  exact view_rows _ _ _

/-- THE RUN: every weakly fair execution of the kernel program terminates with its result at `gatherAdd` of the
    argument arrays, and the arguments unchanged. -/
theorem run : θ_run defs (onTc (τ := τ) (main (F := Ideal))) ⟨m, fun _ => 0, ρ⟩ fun r => ∀ c : Dev nD,
      r.2.mem ((c.tc : Thread nD τ).loc main_v4)
        = Cert.OneHot.gatherAdd (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.LibGatherRows.lean ====
/-
  `stablehlo.gather` of whole ROWS of a rank-2 table, read at an index.

  What `table[idx, :]` of a table `[N, D]` at an integer array `idx : [R, C]` lowers to: a gather with offset_dims
  `[2]`, collapsed_slice_dims `[0]`, start_index_map `[0]`, slice_sizes `[1, D]` and index_vector_dim 2 over the
  indices as `[R, C, 1]`. Result element `(t, j, e)` is the table's entry in column `e` of the row whose number is
  the start index `idx[t, j, 0]` read as a signed integer and clamped into `[0, N − 1]` (StableHLO clamps every start
  index so that the slice fits). The rank-1 case (a flat table) is the library's `gather_take_apply`; this is the same
  argument with one more operand axis, the kept one, which the result's last coordinate addresses.
-/
import Idealize.ShloMosaic.PureOps
import Idealize.ShloMosaic.Lib.ValueIdx

noncomputable section

namespace Idealize.ShloMosaic.GatherRows

open Idealize.ShloMosaic Idealize.ShloMosaic.ValueIdx

variable {α : Type}

/-- Those dimension numbers for a table `[N, D]`, start indices `[R, C, 1]` and result `[R, C, D]`; their conditions
    are decided on a program's literal shapes. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- A rank-3 index's coordinates are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The start-indices index `[t, j, 0]` of result index `(t, j, e)`. -/
abbrev rowIdx {R C D : Nat} (y : (⟨3, ![R, C, D]⟩ : Shape).Idx) : (⟨3, ![R, C, 1]⟩ : Shape).Idx :=
  fun a => match a with
    | ⟨0, _⟩ => ⟨(y 0).val, idx3_lt0 y⟩
    | ⟨1, _⟩ => ⟨(y 1).val, idx3_lt1 y⟩
    | ⟨2, _⟩ => ⟨0, Nat.one_pos⟩

section Axes

variable {N D R C w : Nat}
  (wf : GatherDims.WF ⟨2, ![N, D]⟩ ⟨3, ![R, C, 1]⟩ ⟨3, ![R, C, D]⟩ [2] [0] [] [0] [] 2 ![1, D])
  (idx : IVec ⟨3, ![R, C, 1]⟩ w) (y : (⟨3, ![R, C, D]⟩ : Shape).Idx)

theorem zero_mem_map : (0 : Fin 2) ∈ (rowDims N D R C wf).startIndexMap := List.mem_singleton.mpr rfl
theorem one_not_mem_map : (1 : Fin 2) ∉ (rowDims N D R C wf).startIndexMap := by
  show (1 : Fin 2) ∉ ([0] : List (Fin 2)); decide
theorem zero_not_kept : (0 : Fin 2) ∉ (rowDims N D R C wf).sKept :=
  fun h => ((GatherDims.mem_sKept _ _).mp h).1 (List.mem_singleton.mpr rfl)
theorem one_kept : (1 : Fin 2) ∈ (rowDims N D R C wf).sKept :=
  (GatherDims.mem_sKept _ _).mpr ⟨by show (1 : Fin 2) ∉ ([0] : List (Fin 2)); decide, List.not_mem_nil⟩

/-- On the row axis the slice starts at the start index, read signed and clamped so that one row fits. -/
theorem start_axis0 : (rowDims N D R C wf).start y idx (0 : Fin 2) = min (idx (rowIdx y)).toInt.toNat (N - 1) := by
  unfold GatherDims.start
  rw [dif_pos (zero_mem_map wf)]
  have hsi : (rowDims N D R C wf).siIdx y ⟨List.idxOf (0 : Fin 2) (rowDims N D R C wf).startIndexMap,
      List.idxOf_lt_length_iff.2 (zero_mem_map wf)⟩ = rowIdx y := by
    funext b; refine Fin.ext ?_
    match b with
    | ⟨0, _⟩ => rfl
    | ⟨1, _⟩ => rfl
    | ⟨2, _⟩ => rfl
  rw [hsi]
  rfl

/-- On the column axis the slice starts at 0: the start index names no column. -/
theorem start_axis1 : (rowDims N D R C wf).start y idx (1 : Fin 2) = 0 := by
  unfold GatherDims.start
  rw [dif_neg (one_not_mem_map wf)]

/-- The row axis is collapsed: no offset on it. -/
theorem off_axis0 : (rowDims N D R C wf).offCoord y (0 : Fin 2) = 0 :=
  GatherDims.offCoord_eq_zero _ _ _ (zero_not_kept wf)

/-- The column axis is the kept one: its offset is the result's last coordinate. -/
theorem off_axis1 : (rowDims N D R C wf).offCoord y (1 : Fin 2) = (y 2).val := by
  unfold GatherDims.offCoord
  rw [dif_pos (one_kept wf)]
  rfl

end Axes

/-- THE GATHER READ AT `(t, j, e)`: the table at the row `idx[t, j, 0]`, read signed and clamped into `[0, N − 1]`,
    and column `e`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowDims N D R C wf) x idx y
      = x (ix2 ⟨min (idx (rowIdx y)).toInt.toNat (N - 1), by omega⟩ ⟨(y 2).val, idx3_lt2 y⟩) := by
  unfold Host.gather
  congr 1
  funext a
  refine Fin.ext ?_
  match a with
  | ⟨0, _⟩ =>
    show (rowDims N D R C wf).start y idx (0 : Fin 2) + (rowDims N D R C wf).batchCoord y (0 : Fin 2)
      + (rowDims N D R C wf).offCoord y (0 : Fin 2) = min (idx (rowIdx y)).toInt.toNat (N - 1)
    rw [start_axis0, GatherDims.batchCoord_eq_zero _ _ _ List.not_mem_nil, off_axis0, Nat.add_zero]
  | ⟨1, _⟩ =>
    show (rowDims N D R C wf).start y idx (1 : Fin 2) + (rowDims N D R C wf).batchCoord y (1 : Fin 2)
      + (rowDims N D R C wf).offCoord y (1 : Fin 2) = (y 2).val
    rw [start_axis1, GatherDims.batchCoord_eq_zero _ _ _ List.not_mem_nil, off_axis1, Nat.add_zero, Nat.zero_add]

end Idealize.ShloMosaic.GatherRows

end
-- ==== Proof.RefValue.lean ====
/-
  The reference at an index.

  Entry (b, v, d) of the reference's result is x[b, v, d] plus the gathered table entry, masked: the table's entry
  in column d of the row the index word idx[b, v] selects (the word clipped at 0, wrapped if negative, read signed and
  clamped into the table), replaced by zero when the word is the sentinel −1.
-/
import proofs.«429446_j58892591563169_1_alg».proof.Proof.Gen.ReferenceIdeal.Read
import proofs.«429446_j58892591563169_1_alg».proof.Proof.OneHot
import proofs.«429446_j58892591563169_1_alg».proof.Proof.LibGatherRows
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.GatherRows

variable (x0 : (⟨S1024x128x512, .f32⟩ : BufTy).Contents (Elt Ideal))
  (x1 : (⟨S1024x128, .i32⟩ : BufTy).Contents (Elt Ideal))
  (x2 : (⟨S2048x512, .f32⟩ : BufTy).Contents (Elt Ideal))

/-- The start-index array at (b, v, 0) is the reference's start row of the index word idx[b, v]. -/
theorem start_at (b : Fin 1024) (v : Fin 128) :
    val_main_v9 (F := Ideal) x1 (rowIdx (ix3 b v (0 : Fin 512))) = Cert.OneHot.start (x1 (ix2 b v)) := by
  have hidx : idx_main_v9 (rowIdx (ix3 b v (0 : Fin 512))) = ix2 b v := by
    funext a; match a with | ⟨0, _⟩ => rfl | ⟨1, _⟩ => rfl
  rw [val_main_v9_apply, hidx]
  rfl

/-- The gathered array at (b, v, d): column d of the row the word idx[b, v] selects. -/
theorem gathered_at (b : Fin 1024) (v : Fin 128) (d : Fin 512) :
    val_main_v10 (F := Ideal) x1 x2 (ix3 b v d) = x2 (ix2 (Cert.OneHot.rowOf (x1 (ix2 b v))) d) := by
  unfold val_main_v10
  refine (gather_rows_apply (N := 2048) (D := 512) (R := 1024) (C := 128) (by decide)
    gather_S2048x512_S1024x128x1_S1024x128x512_2_0_n_n_0_2_1512_wf x2 (val_main_v9 (F := Ideal) x1) (ix3 b v d)).trans ?_
  have hrow : rowIdx (ix3 b v d) = rowIdx (ix3 b v (0 : Fin 512)) := by
    funext a; match a with | ⟨0, _⟩ => rfl | ⟨1, _⟩ => rfl | ⟨2, _⟩ => rfl
  refine congrArg x2 ?_
  funext a
  match a with
  | ⟨0, _⟩ =>
    refine Fin.ext ?_
    show min (val_main_v9 (F := Ideal) x1 (rowIdx (ix3 b v d))).toInt.toNat (2048 - 1) = (Cert.OneHot.rowOf (x1 (ix2 b v))).val
    rw [hrow, start_at]
    rfl
  | ⟨1, _⟩ => rfl

/-- The mask at (b, v, d): whether the word idx[b, v] differs from the sentinel. -/
theorem mask_at (b : Fin 1024) (v : Fin 128) (d : Fin 512) :
    val_main_call1_v0 (F := Ideal) x1 (ix3 b v d) = IntOp.cmpi .ne (x1 (ix2 b v)) Cert.OneHot.sentinel := by
  have hidx : idx_main_v2 (idx_main_call1_v0 (ix3 b v d)) = ix2 b v := by
    funext a; match a with | ⟨0, _⟩ => rfl | ⟨1, _⟩ => rfl
  rw [val_main_call1_v0_apply, val_main_v2_apply, hidx, val_main_v1_apply]
  rfl

/-- The fill at any index is zero. -/
theorem fill_at (j : S1024x128x512.Idx) : val_main_call1_v1 (F := Ideal) j = (0 : EReal) := by
  rw [val_main_call1_v1_apply, val_main_cst_apply]
  exact Ideal.ofBits_zero_f32

/-- THE REFERENCE AT (b, v, d). -/
theorem result_at (b : Fin 1024) (v : Fin 128) (d : Fin 512) :
    val_main_v12 (F := Ideal) x0 x1 x2 (ix3 b v d)
      = x0 (ix3 b v d) + Scalar.select (IntOp.cmpi .ne (x1 (ix2 b v)) Cert.OneHot.sentinel)
          (x2 (ix2 (Cert.OneHot.rowOf (x1 (ix2 b v))) d)) (0 : EReal) := by
  rw [val_main_v12_apply, val_main_v11_apply, mask_at, gathered_at, fill_at]
  rfl

/-- THE REFERENCE IS `gatherAdd` where every index word is in [−1, 2048): there the clipped, clamped and masked gather is
    the one-hot sum. -/
theorem result_eq (hlo : ∀ i : S1024x128.Idx, IntOp.cmpi .sge (x1 i) Cert.OneHot.sentinel = 1#1)
    (hhi : ∀ i : S1024x128.Idx, IntOp.cmpi .slt (x1 i) 2048#32 = 1#1) :
    val_main_v12 (F := Ideal) x0 x1 x2 = Cert.OneHot.gatherAdd x0 x1 x2 := by
  funext j
  obtain ⟨b, v, d, rfl⟩ : ∃ (b : Fin 1024) (v : Fin 128) (d : Fin 512), j = ix3 b v d := ⟨j 0, j 1, j 2, eq_ix3 j⟩
  rw [result_at, Cert.OneHot.gatherAdd_eq_masked x0 x1 x2 b v d (hlo _) (hhi _)]

end Cert.ReferenceIdeal.RefValue

end
-- ==== Proof.PreRange.lean ====
/-
  Reading the precondition.

  The precondition is a conjunction of four `all`s: every entry of x finite, every entry of the table finite, every index
  word at least −1, every index word below 2048 (both compares signed). Holding means the conjunction's one bit is 1, so
  each `all` is 1, so each compare is 1 at every index. Only the two facts about the index words are read here: the
  equality of the two programs needs nothing about finiteness.
-/
import proofs.«429446_j58892591563169_1_alg».proof.Pre_finite_inputs
import proofs.«429446_j58892591563169_1_alg».proof.Proof.Gen.Pre_finite_inputs
import Idealize.ShloMosaic.Lib.ReduceAll
import Idealize.ShloMosaic.Lib.ValueIdx

noncomputable section

namespace Cert.Pre_finite_inputs.Range

open Cert.Pre_finite_inputs Cert.Pre_finite_inputs.Gen Idealize.ShloMosaic

instance : Subsingleton S_.Idx := ⟨fun _ _ => funext fun d => d.elim0⟩

/-- Where the precondition holds, every index word is at least −1 and below 2048. -/
theorem of_pre {F : FTy → Type} [FloatOps F] (a0 : FVec F S1024x128x512 .f32) (a1 : IVec S1024x128 32)
    (a2 : FVec F S2048x512 .f32) (h : fn (F := F) a0 a1 a2 = fun _ => 1#1) (i : S1024x128.Idx) :
    IntOp.cmpi .sge (a1 i) 4294967295#32 = 1#1 ∧ IntOp.cmpi .slt (a1 i) 2048#32 = 1#1 := by
  have h0 := congrFun h ValueIdx.ix0
  dsimp only [fn, fn_part1] at h0
  obtain ⟨h12, h15⟩ := IntOp.andi_eq_one.mp h0
  obtain ⟨-, h11⟩ := IntOp.andi_eq_one.mp h12
  exact ⟨Host.reduce_andi_all _ _ _ _ ValueIdx.ix0 h11 i, Host.reduce_andi_all _ _ _ _ ValueIdx.ix0 h15 i⟩

end Cert.Pre_finite_inputs.Range

end
-- ==== Proof.lean ====
/-
  A positional-encoding add with a gather by index: out[b, v, :] = x[b, v, :] + pe[idx[b, v], :], with the sentinel
  index −1 adding nothing.

  The reference clips the index at 0, gathers the table's row and masks the row to zero where the index is −1. The
  kernel flattens (b, v) to 131072 rows, and per block of 512 rows multiplies the one-hot matrix of the block's index
  words by the whole table: row n of the product is the table's row idx[n] when idx[n] is a row number, and zero when
  no column matches. On the extended reals 0 · y = 0 and 1 · y = y for every y, so the one-hot sum down a column is
  exactly the selected entry (or zero), with no use of finiteness.

  The two programs differ for an index below −1 (the reference reads row 0, the kernel adds nothing) and for an index
  of 2048 or more (the reference reads past the table, clamped to the last row; the kernel adds nothing), so the claim
  is stated where every index is the sentinel −1 or a row of the table: −1 ≤ idx < 2048. There the reference's row is
  the index itself and its mask is the one-hot sum's zero.

  Both programs' results are shown to be ONE function of the arguments (`gatherAdd`): the kernel's from its frame run
  (each grid point writes one block; the blocks tile the output; the result is the output re-viewed as 1024 × 128 × 512),
  the reference's from its run read one operation at a time.
-/
import proofs.«429446_j58892591563169_1_alg».proof.Defs
import proofs.«429446_j58892591563169_1_alg».proof.Proof.Gen.Kernel
import proofs.«429446_j58892591563169_1_alg».proof.Proof.Gen.Kernel.Skeleton
import proofs.«429446_j58892591563169_1_alg».proof.Proof.Gen.Kernel.Launch
import proofs.«429446_j58892591563169_1_alg».proof.Proof.Gen.Kernel.Points
import proofs.«429446_j58892591563169_1_alg».proof.Proof.Gen.Kernel.Frame
import proofs.«429446_j58892591563169_1_alg».proof.Proof.Gen.KernelIdeal
import proofs.«429446_j58892591563169_1_alg».proof.Proof.Gen.KernelIdeal.Skeleton
import proofs.«429446_j58892591563169_1_alg».proof.Proof.Gen.KernelIdeal.Launch
import proofs.«429446_j58892591563169_1_alg».proof.Proof.Gen.KernelIdeal.Points
import proofs.«429446_j58892591563169_1_alg».proof.Proof.Gen.KernelIdeal.Frame
import proofs.«429446_j58892591563169_1_alg».proof.Proof.Gen.ReferenceIdeal
import proofs.«429446_j58892591563169_1_alg».proof.Proof.Gen.Pre_finite_inputs
import proofs.«429446_j58892591563169_1_alg».proof.Proof.Gen.ReferenceIdeal.Run
import proofs.«429446_j58892591563169_1_alg».proof.Proof.Gen.ReferenceIdeal.Read
import proofs.«429446_j58892591563169_1_alg».proof.Proof.KernelValue
import proofs.«429446_j58892591563169_1_alg».proof.Proof.RefValue
import proofs.«429446_j58892591563169_1_alg».proof.Proof.PreRange
import Idealize.ShloMosaic.Adequacy
import Idealize.ShloMosaic.Init

noncomputable section

namespace Cert.Proof

open Idealize.ShloMosaic Idealize.SL.Sem

/-- The kernel program runs and keeps its arguments, read at the word level. -/
theorem frame_k : Cert.frame_Kernel := fun m ρ _ => Cert.Kernel.Gen.frame m ρ

/-- The same program read over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `gatherAdd` of the arguments: the kernel always, the reference where every index word is in
    [−1, 2048), which the precondition says. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2]
  exact Cert.ReferenceIdeal.RefValue.result_eq _ _ _
    (fun i => (Cert.Pre_finite_inputs.Range.of_pre _ _ _ (hpre c) i).1)
    (fun i => (Cert.Pre_finite_inputs.Range.of_pre _ _ _ (hpre c) i).2)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
